-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x48x64x64 : Shape := ⟨4, ![64, 48, 64, 64]⟩
abbrev S_ : Shape := ⟨0, ![]⟩

class Facts : Prop where
  bcast_S_S64x48x64x64 : S_.BroadcastsInDim S64x48x64x64 (![] : Fin 0 → Fin S64x48x64x64.rank)
  reducesTo_S64x48x64x64_S_d0_1_2_3 : S64x48x64x64.ReducesTo [0, 1, 2, 3] S_
  h_S_ : 0 < S_.numel

variable [Facts]

def fn {F : FTy → Type} [FloatOps F] (main_arg0 : FVec F S64x48x64x64 .f32) (main_arg1 : FVec F S64x48x64x64 .f32) (main_arg2 : FVec F S64x48x64x64 .f32) (main_arg3 : IVec S64x48x64x64 1) : IVec S_ 1 :=
  let main_v0 : FVec F S64x48x64x64 .f32 := Host.absf main_arg0
  let main_cst : FVec F S_ .f32 := constant S_ .f32 0x7F800000#32
  let main_v1 : FVec F S64x48x64x64 .f32 := broadcastInDim S64x48x64x64 ![] bcast_S_S64x48x64x64 main_cst
  let main_v2 : IVec S64x48x64x64 1 := cmpf .olt main_v0 main_v1
  let main_c : IVec S_ 1 := constantI S_ 1 1#1
  let main_v3 : IVec S_ 1 := (fun x v => Host.reduce IntOp.andi x v reducesTo_S64x48x64x64_S_d0_1_2_3 h_S_) main_v2 main_c
  let main_v4 : FVec F S64x48x64x64 .f32 := Host.absf main_arg1
  let main_cst_0 : FVec F S_ .f32 := constant S_ .f32 0x7F800000#32
  let main_v5 : FVec F S64x48x64x64 .f32 := broadcastInDim S64x48x64x64 ![] bcast_S_S64x48x64x64 main_cst_0
  let main_v6 : IVec S64x48x64x64 1 := cmpf .olt main_v4 main_v5
  let main_c_1 : IVec S_ 1 := constantI S_ 1 1#1
  let main_v7 : IVec S_ 1 := (fun x v => Host.reduce IntOp.andi x v reducesTo_S64x48x64x64_S_d0_1_2_3 h_S_) main_v6 main_c_1
  let main_v8 : IVec S_ 1 := andi main_v3 main_v7
  let main_v9 : FVec F S64x48x64x64 .f32 := Host.absf main_arg2
  let main_cst_2 : FVec F S_ .f32 := constant S_ .f32 0x7F800000#32
  let main_v10 : FVec F S64x48x64x64 .f32 := broadcastInDim S64x48x64x64 ![] bcast_S_S64x48x64x64 main_cst_2
  let main_v11 : IVec S64x48x64x64 1 := cmpf .olt main_v9 main_v10
  let main_c_3 : IVec S_ 1 := constantI S_ 1 1#1
  let main_v12 : IVec S_ 1 := (fun x v => Host.reduce IntOp.andi x v reducesTo_S64x48x64x64_S_d0_1_2_3 h_S_) main_v11 main_c_3
  let main_v13 : IVec S_ 1 := andi main_v8 main_v12
  main_v13
-- ==== Kernel.lean ====
abbrev S64x48x64x64 : Shape := ⟨4, ![64, 48, 64, 64]⟩
abbrev S3072x64x64 : Shape := ⟨3, ![3072, 64, 64]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 13
  | .vmem => 12
  | .smem => 0
  | _ => 0

abbrev bufTy : (tb : Table) → Fin (tcTables nBuf tb) → BufTy
  | .hbm, ⟨0, _⟩ => ⟨S64x48x64x64, .f32⟩
  | .hbm, ⟨1, _⟩ => ⟨S64x48x64x64, .f32⟩
  | .hbm, ⟨2, _⟩ => ⟨S64x48x64x64, .f32⟩
  | .hbm, ⟨3, _⟩ => ⟨S64x48x64x64, .i1⟩
  | .hbm, ⟨4, _⟩ => ⟨S3072x64x64, .f32⟩
  | .hbm, ⟨5, _⟩ => ⟨S3072x64x64, .f32⟩
  | .hbm, ⟨6, _⟩ => ⟨S3072x64x64, .f32⟩
  | .hbm, ⟨7, _⟩ => ⟨S3072x64x64, .i1⟩
  | .hbm, ⟨8, _⟩ => ⟨S3072x64x64, .i32⟩
  | .hbm, ⟨9, _⟩ => ⟨S3072x64x64, .f32⟩
  | .hbm, ⟨10, _⟩ => ⟨S3072x64x64, .f32⟩
  | .hbm, ⟨11, _⟩ => ⟨S64x48x64x64, .f32⟩
  | .hbm, ⟨12, _⟩ => ⟨S64x48x64x64, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | .local _ .vmem, ⟨4, _⟩ => ⟨S128x64x64, .f32⟩
  | .local _ .vmem, ⟨5, _⟩ => ⟨S128x64x64, .f32⟩
  | .local _ .vmem, ⟨6, _⟩ => ⟨S128x64x64, .i32⟩
  | .local _ .vmem, ⟨7, _⟩ => ⟨S128x64x64, .i32⟩
  | .local _ .vmem, ⟨8, _⟩ => ⟨S128x64x64, .f32⟩
  | .local _ .vmem, ⟨9, _⟩ => ⟨S128x64x64, .f32⟩
  | .local _ .vmem, ⟨10, _⟩ => ⟨S128x64x64, .f32⟩
  | .local _ .vmem, ⟨11, _⟩ => ⟨S128x64x64, .f32⟩
  | _, _ => ⟨S64x48x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x48x64x64_S3072x64x64 : S64x48x64x64.ShapeCasts S3072x64x64
  natLt_1_32 : 1 < 32
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  bitsLt_bf16_f32 : FTy.bits .bf16 < FTy.bits .f32
  reduces_S128x64x64_S128x64 : S128x64x64.Reduces [2] S128x64
  shapeCasts_S128x64_S128x64x1 : S128x64.ShapeCasts S128x64x1
  broadcasts_S128x64x1_S128x64x64 : S128x64x1.Broadcasts S128x64x64
  shapeCasts_S3072x64x64_S64x48x64x64 : S3072x64x64.ShapeCasts S64x48x64x64
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S3072x64x64.size a
  hwx0_0 : ∀ i : grid0.Coords, EltTy.bits .f32 = 32 ∨ (Rect.block (s := S3072x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S3072x64x64.size a
  hwx0_1 : ∀ i : grid0.Coords, EltTy.bits .f32 = 32 ∨ (Rect.block (s := S3072x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S3072x64x64.size a
  hwx0_2 : ∀ i : grid0.Coords, EltTy.bits .f32 = 32 ∨ (Rect.block (s := S3072x64x64) S128x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x64.size a ≤ S3072x64x64.size a
  hwx0_3 : ∀ i : grid0.Coords, EltTy.bits .i32 = 32 ∨ (Rect.block (s := S3072x64x64) S128x64x64.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64x64.size a ≤ S3072x64x64.size a
  hwx0_4 : ∀ i : grid0.Coords, EltTy.bits .f32 = 32 ∨ (Rect.block (s := S3072x64x64) S128x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64x64.size a ≤ S3072x64x64.size a
  hwx0_5 : ∀ i : grid0.Coords, EltTy.bits .f32 = 32 ∨ (Rect.block (s := S3072x64x64) S128x64x64.size (cc0_transform_5 i) (hinb0_5 i)).WholeWords (EltTy.packing .f32)

variable [Facts₀]

def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_v0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S128x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S128x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x48x64x64 : Shape := ⟨4, ![64, 48, 64, 64]⟩
abbrev S_ : Shape := ⟨0, ![]⟩
abbrev S64x48x64 : Shape := ⟨3, ![64, 48, 64]⟩
abbrev S64x48x64x1 : Shape := ⟨4, ![64, 48, 64, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x48x64x64, .f32⟩
  | .hbm, ⟨1, _⟩ => ⟨S64x48x64x64, .f32⟩
  | .hbm, ⟨2, _⟩ => ⟨S64x48x64x64, .f32⟩
  | .hbm, ⟨3, _⟩ => ⟨S64x48x64x64, .i1⟩
  | .hbm, ⟨4, _⟩ => ⟨S64x48x64x64, .f32⟩
  | .hbm, ⟨5, _⟩ => ⟨S_, .f32⟩
  | .hbm, ⟨6, _⟩ => ⟨S64x48x64, .f32⟩
  | .hbm, ⟨7, _⟩ => ⟨S_, .f32⟩
  | .hbm, ⟨8, _⟩ => ⟨S64x48x64, .f32⟩
  | .hbm, ⟨9, _⟩ => ⟨S64x48x64, .f32⟩
  | .hbm, ⟨10, _⟩ => ⟨S64x48x64x1, .f32⟩
  | .hbm, ⟨11, _⟩ => ⟨S64x48x64x64, .f32⟩
  | .hbm, ⟨12, _⟩ => ⟨S64x48x64x64, .f32⟩
  | .hbm, ⟨13, _⟩ => ⟨S64x48x64x64, .f32⟩
  | .hbm, ⟨14, _⟩ => ⟨S_, .f32⟩
  | .hbm, ⟨15, _⟩ => ⟨S64x48x64, .f32⟩
  | .hbm, ⟨16, _⟩ => ⟨S64x48x64x1, .f32⟩
  | .hbm, ⟨17, _⟩ => ⟨S64x48x64x64, .f32⟩
  | .hbm, ⟨18, _⟩ => ⟨S64x48x64x64, .f32⟩
  | .hbm, ⟨19, _⟩ => ⟨S64x48x64x64, .f32⟩
  | .hbm, ⟨20, _⟩ => ⟨S64x48x64x64, .f32⟩
  | .hbm, ⟨21, _⟩ => ⟨S64x48x64x64, .f32⟩
  | .hbm, ⟨22, _⟩ => ⟨S64x48x64x64, .f32⟩
  | .hbm, ⟨23, _⟩ => ⟨S64x48x64x64, .f32⟩
  | _, _ => ⟨S64x48x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S64x48x64x64_S64x48x64_d3 : S64x48x64x64.ReducesTo [3] S64x48x64
  h_S_ : 0 < S_.numel
  bcast_S_S64x48x64 : S_.BroadcastsInDim S64x48x64 (![] : Fin 0 → Fin S64x48x64.rank)
  bcast_S64x48x64_S64x48x64x1_0_1_2 : S64x48x64.BroadcastsInDim S64x48x64x1 (![0, 1, 2] : Fin 3 → Fin S64x48x64x1.rank)
  bcast_S64x48x64x1_S64x48x64x64_0_1_2_3 : S64x48x64x1.BroadcastsInDim S64x48x64x64 (![0, 1, 2, 3] : Fin 4 → Fin S64x48x64x64.rank)
  dot_S64x48x64x64_S64x48x64x64_S64x48x64x64_3_3_2_2_01_01_wf : DotDims.WF S64x48x64x64 S64x48x64x64 S64x48x64x64 [3] [3] [2] [2] [0, 1] [0, 1]
  dot_S64x48x64x64_S64x48x64x64_S64x48x64x64_3_2_2_3_01_01_wf : DotDims.WF S64x48x64x64 S64x48x64x64 S64x48x64x64 [3] [2] [2] [3] [0, 1] [0, 1]

variable [Facts₀]

def dot_S64x48x64x64_S64x48x64x64_S64x48x64x64_3_3_2_2_01_01 : DotDims S64x48x64x64 S64x48x64x64 S64x48x64x64 where
  lhsContracting := [3]
  rhsContracting := [3]
  lhsNonContracting := [2]
  rhsNonContracting := [2]
  lhsBatch := [0, 1]
  rhsBatch := [0, 1]
  wf := dot_S64x48x64x64_S64x48x64x64_S64x48x64x64_3_3_2_2_01_01_wf
def dot_S64x48x64x64_S64x48x64x64_S64x48x64x64_3_2_2_3_01_01 : DotDims S64x48x64x64 S64x48x64x64 S64x48x64x64 where
  lhsContracting := [3]
  rhsContracting := [2]
  lhsNonContracting := [2]
  rhsNonContracting := [3]
  lhsBatch := [0, 1]
  rhsBatch := [0, 1]
  wf := dot_S64x48x64x64_S64x48x64x64_S64x48x64x64_3_2_2_3_01_01_wf

class Facts : Prop extends Facts₀ where

variable [Facts]
-- ==== Proof.Spec.lean ====
/-
  One query row of attention with the mask applied AFTER the softmax, on the extended reals.

  For a query row `qrow : Fin 64 → EReal`, keys `kmat t d`, values `vmat t d` and the row's mask `mrow`:
    score t   = Σ_d qrow d · kmat t d
    rowMax    = max(−∞, max over t of score t)            (the fold starts at −∞ as well)
    softmax t = exp(score t − rowMax) / Σ_u exp(score u − rowMax)
    weight t  = softmax t · mrow t                        (rows are not renormalised)
    output d  = (Σ_t weight t · vmat t d) · mrow d        (the same mask row again: keys and features both number 64)
  Both programs compute exactly this, row by row; they differ only in how a row is addressed — a row `r` of the
  flattened [3072, 64, 64] arrays against the pair `(b, h)` with `r = 48·b + h` of the [64, 48, 64, 64] ones — and in how a
  mask bit becomes a number: the flattened side widens the bit to a 32-bit word, tests it against zero and converts the
  0/1 word as a signed integer; the other converts the bit as an unsigned integer. Both give 0 or 1 (`maskWord_setWidth`).
  No law of arithmetic beyond that is used, so nothing here needs the inputs to be finite.
-/
import Idealize.ShloMosaic.PureOps.Ideal
import Idealize.ShloMosaic.PureOps.Ideal.Laws
import Idealize.ShloMosaic.Lib.ValueIdx
import Idealize.ShloMosaic.Lib.Pipeline.Value

noncomputable section

namespace Cert.MaskedAttn

open Idealize.ShloMosaic Idealize.ShloMosaic.ValueIdx

/-! ## One row -/

/-- −∞ as the f32 word both programs start a row's maximum from; it is the same word on both sides and is never evaluated. -/
abbrev negInf : EReal := Ideal.ofBits .f32 0xFF800000#32

/-- The scores of one query row against every key. -/
def score (qrow : Fin 64 → EReal) (kmat : Fin 64 → Fin 64 → EReal) (t : Fin 64) : EReal :=
  ∑ d : Fin 64, qrow d * kmat t d

/-- The row's maximum: the fold of `max` from −∞ over the 64 scores, then once more against −∞. -/
def rowMax (sc : Fin 64 → EReal) : EReal :=
  max negInf ((Finset.univ : Finset (Fin 64)).fold max negInf sc)

/-- A score shifted by the row's maximum, exponentiated. -/
def expShift (sc : Fin 64 → EReal) (t : Fin 64) : EReal := Ideal.exp (sc t - rowMax sc)

/-- The softmax of a row of scores. -/
def softmax (sc : Fin 64 → EReal) (t : Fin 64) : EReal :=
  Ideal.div (expShift sc t) (∑ u : Fin 64, expShift sc u)

/-- The attention weights of one row: its softmax times the row's mask, entry by entry. -/
def weight (qrow : Fin 64 → EReal) (kmat : Fin 64 → Fin 64 → EReal) (mrow : Fin 64 → EReal) (t : Fin 64) : EReal :=
  softmax (score qrow kmat) t * mrow t

/-- The attended values of one row, masked once more with the same mask row. -/
def output (qrow : Fin 64 → EReal) (kmat : Fin 64 → Fin 64 → EReal) (mrow : Fin 64 → EReal)
    (vmat : Fin 64 → Fin 64 → EReal) (d : Fin 64) : EReal :=
  (∑ t : Fin 64, weight qrow kmat mrow t * vmat t d) * mrow d

/-! ## A mask bit as a number, in the two spellings -/

/-- A mask bit converted as an unsigned integer: 0 or 1. -/
def maskBit (b : BitVec 1) : EReal := ((b.toNat : ℝ) : EReal)

/-- A 32-bit mask word: tested against zero, the test's bit widened to a word, the word converted as a signed integer. -/
def maskWord (w : BitVec 32) : EReal := ((((IntOp.cmpi .ne w 0#32).setWidth 32).toInt : ℝ) : EReal)

/-- A bit widened to a word and read back through the test is the bit. -/
theorem maskWord_setWidth (b : BitVec 1) : maskWord (b.setWidth 32) = maskBit b := by
  have h : ∀ b : BitVec 1, ((IntOp.cmpi .ne (b.setWidth 32) 0#32).setWidth 32).toInt = (b.toNat : ℤ) := by decide
  unfold maskWord maskBit
  rw [h b, Int.cast_natCast]

/-! ## The arrays: rows of the flattened layout and of the four-axis layout -/

abbrev Flat : Shape := ⟨3, ![3072, 64, 64]⟩
abbrev Four : Shape := ⟨4, ![64, 48, 64, 64]⟩

/-- The attention weights over the flattened arrays, the mask held as 32-bit words. -/
def weightsFlat (q k : Flat.Idx → EReal) (mk : Flat.Idx → BitVec 32) (r : Fin 3072) (s t : Fin 64) : EReal :=
  weight (fun d => q (ix3 r s d)) (fun u d => k (ix3 r u d)) (fun u => maskWord (mk (ix3 r s u))) t

/-- The attended values over the flattened arrays. -/
def outputsFlat (q k v : Flat.Idx → EReal) (mk : Flat.Idx → BitVec 32) (r : Fin 3072) (s d : Fin 64) : EReal :=
  output (fun e => q (ix3 r s e)) (fun u e => k (ix3 r u e)) (fun u => maskWord (mk (ix3 r s u))) (fun u e => v (ix3 r u e)) d

/-- The attention weights over the four-axis arrays, the mask held as bits. -/
def weightsFour (q k : Four.Idx → EReal) (mk : Four.Idx → BitVec 1) (b : Fin 64) (h : Fin 48) (s t : Fin 64) : EReal :=
  weight (fun d => q (ix4 b h s d)) (fun u d => k (ix4 b h u d)) (fun u => maskBit (mk (ix4 b h s u))) t

/-- The attended values over the four-axis arrays. -/
def outputsFour (q k v : Four.Idx → EReal) (mk : Four.Idx → BitVec 1) (b : Fin 64) (h : Fin 48) (s d : Fin 64) : EReal :=
  output (fun e => q (ix4 b h s e)) (fun u e => k (ix4 b h u e)) (fun u => maskBit (mk (ix4 b h s u))) (fun u e => v (ix4 b h u e)) d

/-! ## Flattening the two leading axes and undoing it -/

/-- Row `48·b + h` of the flattened layout. -/
abbrev flatRow (b : Fin 64) (h : Fin 48) : Fin 3072 := ⟨b.val * 48 + h.val, by have := b.isLt; have := h.isLt; omega⟩

/-- The flattened array at row `48·b + h` is the four-axis array at `(b, h)`. -/
theorem flatten_apply {α : Type} (x : Four.Idx → α) (hc : Four.ShapeCasts Flat) (b : Fin 64) (h : Fin 48) (s d : Fin 64) :
    shapeCast Flat x hc (ix3 (flatRow b h) s d) = x (ix4 b h s d) := by
  refine shapeCast_apply x hc _ _ ?_
  rw [Shape.rowMajor_val_four, Shape.rowMajor_val_three]
  show ((b.val * 48 + h.val) * 64 + s.val) * 64 + d.val = ((b.val * 48 + h.val) * 64 + s.val) * 64 + d.val
  rfl

/-- A flattened array cast back to four axes reads row `48·b + h` at `(b, h)`. -/
theorem unflatten_apply {α : Type} (y : Flat.Idx → α) (hc : Flat.ShapeCasts Four) (b : Fin 64) (h : Fin 48) (s d : Fin 64) :
    shapeCast Four y hc (ix4 b h s d) = y (ix3 (flatRow b h) s d) := by
  refine shapeCast_apply y hc _ _ ?_
  rw [Shape.rowMajor_val_four, Shape.rowMajor_val_three]
  show ((b.val * 48 + h.val) * 64 + s.val) * 64 + d.val = ((b.val * 48 + h.val) * 64 + s.val) * 64 + d.val
  rfl

/-- The weights computed on the flattened arrays (the mask widened to words) and cast back are the weights of the
    four-axis arrays. -/
theorem weights_unflatten (q k : Four.Idx → EReal) (mk : Four.Idx → BitVec 1) (hc : Four.ShapeCasts Flat) (hc' : Flat.ShapeCasts Four)
    (hlt : 1 < 32) :
    shapeCast Four (fun i : Flat.Idx => weightsFlat (shapeCast Flat q hc) (shapeCast Flat k hc) (extui 32 (shapeCast Flat mk hc) hlt) (i 0) (i 1) (i 2)) hc'
      = fun i : Four.Idx => weightsFour q k mk (i 0) (i 1) (i 2) (i 3) := by
  funext i
  obtain ⟨b, h, s, t, rfl⟩ : ∃ (b : Fin 64) (h : Fin 48) (s t : Fin 64), i = ix4 b h s t := ⟨i 0, i 1, i 2, i 3, eq_ix4 i⟩
  rw [unflatten_apply]
  show weightsFlat _ _ _ (flatRow b h) s t = weightsFour q k mk b h s t
  unfold weightsFlat weightsFour
  simp only [flatten_apply, extui_apply, maskWord_setWidth]

/-- The attended values likewise. -/
theorem outputs_unflatten (q k v : Four.Idx → EReal) (mk : Four.Idx → BitVec 1) (hc : Four.ShapeCasts Flat) (hc' : Flat.ShapeCasts Four)
    (hlt : 1 < 32) :
    shapeCast Four (fun i : Flat.Idx => outputsFlat (shapeCast Flat q hc) (shapeCast Flat k hc) (shapeCast Flat v hc) (extui 32 (shapeCast Flat mk hc) hlt) (i 0) (i 1) (i 2)) hc'
      = fun i : Four.Idx => outputsFour q k v mk (i 0) (i 1) (i 2) (i 3) := by
  funext i
  obtain ⟨b, h, s, d, rfl⟩ : ∃ (b : Fin 64) (h : Fin 48) (s d : Fin 64), i = ix4 b h s d := ⟨i 0, i 1, i 2, i 3, eq_ix4 i⟩
  rw [unflatten_apply]
  show outputsFlat _ _ _ _ (flatRow b h) s d = outputsFour q k v mk b h s d
  unfold outputsFlat outputsFour
  simp only [flatten_apply, extui_apply, maskWord_setWidth]

end Cert.MaskedAttn

end
-- ==== Proof.RefStages.lean ====
/-
  The reference, stage by stage, is the row formula over the four-axis arrays.

  Its `dot_general` over the last axis of q and k is a row's scores; the max-reduce over the last axis, taken again against
  −∞, is the row's maximum (a fold of `max` over the 64 scores: the order of a fold of `max` does not matter); subtract,
  exponentiate, sum from 0 and divide is the softmax; the product with the mask bit read as an unsigned integer is the
  weight; the second `dot_general` contracts the weights' last axis with the values' third, and the same mask bit
  multiplies the result.
-/
import proofs.«151057_j39676907884806_1_alg».proof.Proof.Gen.ReferenceIdeal.Read
import proofs.«151057_j39676907884806_1_alg».proof.Proof.Spec

noncomputable section

namespace Cert.ReferenceIdeal.Stages

open Cert.ReferenceIdeal Cert.ReferenceIdeal.Gen Cert.ReferenceIdeal.Read Cert.MaskedAttn
open Idealize.ShloMosaic Idealize.ShloMosaic.ValueIdx

variable (x0 x1 x2 : (⟨S64x48x64x64, .f32⟩ : BufTy).Contents (Elt Ideal)) (x3 : (⟨S64x48x64x64, .i1⟩ : BufTy).Contents (Elt Ideal))

/-- The last axis of the four-axis shape can be dropped (the fact that names a reduced index with a coordinate put back). -/
theorem reduces_last : S64x48x64x64.Reduces [3] S64x48x64 := by decide

/-- The scores of row `(b, h, s)`, as the reference's first stage holds them. -/
abbrev scoresOf (b : Fin 64) (h : Fin 48) (s : Fin 64) : Fin 64 → EReal :=
  fun u => val_main_v0 (F := Ideal) x0 x1 (ix4 b h s u)

/-- The first `dot_general` at `(b, h, s, t)` is the score of query row `s` against key `t`. -/
theorem scoresOf_eq (b : Fin 64) (h : Fin 48) (s : Fin 64) :
    scoresOf x0 x1 b h s = score (fun d => x0 (ix4 b h s d)) (fun u d => x1 (ix4 b h u d)) := by
  funext t
  show val_main_v0 (F := Ideal) x0 x1 (ix4 b h s t) = _
  rw [val_main_v0_apply]
  unfold score
  refine Finset.sum_congr rfl fun d _ => ?_
  have el : lidx_main_v0 (ix4 b h s t) d = ix4 b h s d :=
    funext fun a => Fin.ext (by match a with | ⟨0, _⟩ => rfl | ⟨1, _⟩ => rfl | ⟨2, _⟩ => rfl | ⟨3, _⟩ => rfl)
  have er : ridx_main_v0 (ix4 b h s t) d = ix4 b h t d :=
    funext fun a => Fin.ext (by match a with | ⟨0, _⟩ => rfl | ⟨1, _⟩ => rfl | ⟨2, _⟩ => rfl | ⟨3, _⟩ => rfl)
  rw [el, er]

/-- The max-reduce over the last axis, taken once more against −∞, is the row's maximum. -/
theorem rowMax_ref (b : Fin 64) (h : Fin 48) (s : Fin 64) :
    val_main_v3 (F := Ideal) x0 x1 (ix3 b h s) = rowMax (scoresOf x0 x1 b h s) := by
  rw [val_main_v3_apply, val_main_v2_apply, val_main_cst_0_apply]
  unfold val_main_v1
  rw [Host.reduce_eq_fold_single FloatOps.maximumf _ _ reducesTo_S64x48x64x64_S64x48x64_d3 reduces_last h_S_ (ix3 b h s)]
  have hl : ∀ t : Fin 64, reduces_last.lift (ix3 b h s) t = ix4 b h s t := fun t =>
    funext fun a => Fin.ext (by match a with | ⟨0, _⟩ => rfl | ⟨1, _⟩ => rfl | ⟨2, _⟩ => rfl | ⟨3, _⟩ => rfl)
  have hf : (val_main_v0 (F := Ideal) x0 x1 ∘ reduces_last.lift (ix3 b h s)) = scoresOf x0 x1 b h s :=
    funext fun t => congrArg (val_main_v0 (F := Ideal) x0 x1) (hl t)
  rw [hf]
  rfl

/-- A shifted, exponentiated score, as the reference's `exponential` stage holds it. -/
theorem expShift_ref (b : Fin 64) (h : Fin 48) (s u : Fin 64) :
    val_main_v7 (F := Ideal) x0 x1 (ix4 b h s u) = expShift (scoresOf x0 x1 b h s) u := by
  rw [val_main_v7_apply, val_main_v6_apply, val_main_v5_apply, val_main_v4_apply]
  have e : idx_main_v4 (idx_main_v5 (ix4 b h s u)) = ix3 b h s :=
    funext fun a => Fin.ext (by match a with | ⟨0, _⟩ => rfl | ⟨1, _⟩ => rfl | ⟨2, _⟩ => rfl)
  rw [e, rowMax_ref]
  rfl

/-- The sum of a row's shifted exponentials: the add-reduce starts from the zero word. -/
theorem expSum_ref (b : Fin 64) (h : Fin 48) (s : Fin 64) :
    val_main_v8 (F := Ideal) x0 x1 (ix3 b h s) = ∑ u : Fin 64, expShift (scoresOf x0 x1 b h s) u := by
  rw [val_main_v8_apply, val_main_cst_1_apply]
  show Ideal.ofBits .f32 0x00000000#32 + _ = _
  rw [Ideal.ofBits_zero_f32, zero_add]
  refine Finset.sum_congr rfl fun u _ => ?_
  have e : idx_main_v8 (ix3 b h s) u = ix4 b h s u :=
    funext fun a => Fin.ext (by match a with | ⟨0, _⟩ => rfl | ⟨1, _⟩ => rfl | ⟨2, _⟩ => rfl | ⟨3, _⟩ => rfl)
  rw [e, expShift_ref]

/-- The reference's first result at `(b, h, s, t)` is the weight of the row formula. -/
theorem weights_ref (b : Fin 64) (h : Fin 48) (s t : Fin 64) :
    val_main_v13 (F := Ideal) x0 x1 x3 (ix4 b h s t) = weightsFour x0 x1 x3 b h s t := by
  rw [val_main_v13_apply, val_main_v12_apply, val_main_v11_apply, val_main_v10_apply, val_main_v9_apply]
  have e : idx_main_v9 (idx_main_v10 (ix4 b h s t)) = ix3 b h s :=
    funext fun a => Fin.ext (by match a with | ⟨0, _⟩ => rfl | ⟨1, _⟩ => rfl | ⟨2, _⟩ => rfl)
  rw [e, expSum_ref, expShift_ref]
  unfold weightsFour weight softmax
  rw [← scoresOf_eq]
  rfl

/-- The reference's second result at `(b, h, s, d)` is the attended value of the row formula. -/
theorem outputs_ref (b : Fin 64) (h : Fin 48) (s d : Fin 64) :
    val_main_v16 (F := Ideal) x0 x1 x2 x3 (ix4 b h s d) = outputsFour x0 x1 x2 x3 b h s d := by
  rw [val_main_v16_apply, val_main_v15_apply, val_main_v14_apply]
  have hs : (∑ t : Fin 64, val_main_v13 (F := Ideal) x0 x1 x3 (lidx_main_v14 (ix4 b h s d) t) * x2 (ridx_main_v14 (ix4 b h s d) t))
      = ∑ t : Fin 64, weightsFour x0 x1 x3 b h s t * x2 (ix4 b h t d) := by
    refine Finset.sum_congr rfl fun t _ => ?_
    have el : lidx_main_v14 (ix4 b h s d) t = ix4 b h s t :=
      funext fun a => Fin.ext (by match a with | ⟨0, _⟩ => rfl | ⟨1, _⟩ => rfl | ⟨2, _⟩ => rfl | ⟨3, _⟩ => rfl)
    have er : ridx_main_v14 (ix4 b h s d) t = ix4 b h t d :=
      funext fun a => Fin.ext (by match a with | ⟨0, _⟩ => rfl | ⟨1, _⟩ => rfl | ⟨2, _⟩ => rfl | ⟨3, _⟩ => rfl)
    rw [el, er, weights_ref]
  rw [hs]
  rfl

/-- The two results as whole arrays. -/
theorem weights_ref_array :
    val_main_v13 (F := Ideal) x0 x1 x3 = fun i : Four.Idx => weightsFour x0 x1 x3 (i 0) (i 1) (i 2) (i 3) := by
  funext i
  obtain ⟨b, h, s, t, rfl⟩ : ∃ (b : Fin 64) (h : Fin 48) (s t : Fin 64), i = ix4 b h s t := ⟨i 0, i 1, i 2, i 3, eq_ix4 i⟩
  exact weights_ref x0 x1 x3 b h s t

theorem outputs_ref_array :
    val_main_v16 (F := Ideal) x0 x1 x2 x3 = fun i : Four.Idx => outputsFour x0 x1 x2 x3 (i 0) (i 1) (i 2) (i 3) := by
  funext i
  obtain ⟨b, h, s, d, rfl⟩ : ∃ (b : Fin 64) (h : Fin 48) (s d : Fin 64), i = ix4 b h s d := ⟨i 0, i 1, i 2, i 3, eq_ix4 i⟩
  exact outputs_ref x0 x1 x2 x3 b h s d

end Cert.ReferenceIdeal.Stages

end
-- ==== Proof.KernelPayload.lean ====
/-
  The kernel body on one block of 128 rows, read at an entry, is the row formula.

  A block holds 128 consecutive rows `p` of the flattened arrays. The first matrix product contracts the last axis of the
  q block with the last axis of the k block, row by row (the leading axis is a batch axis), into a zero accumulator: entry
  `(p, s, t)` is the score of query `s` against key `t` of row `p`. The lane maximum from −∞, taken again against −∞ and
  laid back along the lanes, is the row's maximum; subtract, exponentiate, sum the lanes from zero, lay the sum back and
  divide: the softmax. The mask word becomes 0 or 1 and multiplies it. The second product contracts the weights' last axis
  with the v block's middle axis, and the same mask entry multiplies the result. The changes of float format on the way
  to the two products are the identity on extended reals.
-/
import proofs.«151057_j39676907884806_1_alg».proof.Proof.Gen.KernelIdeal.Skeleton
import proofs.«151057_j39676907884806_1_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Cert.MaskedAttn
open Idealize.ShloMosaic Idealize.ShloMosaic.ValueIdx

/-! ## The two batched products -/

theorem lhs_qk_0 (i : S128x64x64.Idx) (q : dot_S128x64x64_S128x64x64_S128x64x64_2_2_1_1_0_0.contr.Idx) :
    (dot_S128x64x64_S128x64x64_S128x64x64_2_2_1_1_0_0.lhsIdx i q 0).val = (i 0).val := by
  unfold DotDims.lhsIdx
  rw [dif_pos (show (0 : Fin S128x64x64.rank) ∈ dot_S128x64x64_S128x64x64_S128x64x64_2_2_1_1_0_0.lhsBatch by decide)]
  rfl
theorem lhs_qk_1 (i : S128x64x64.Idx) (q : dot_S128x64x64_S128x64x64_S128x64x64_2_2_1_1_0_0.contr.Idx) :
    (dot_S128x64x64_S128x64x64_S128x64x64_2_2_1_1_0_0.lhsIdx i q 1).val = (i 1).val := by
  unfold DotDims.lhsIdx
  rw [dif_neg (show ¬(1 : Fin S128x64x64.rank) ∈ dot_S128x64x64_S128x64x64_S128x64x64_2_2_1_1_0_0.lhsBatch by decide), dif_pos (show (1 : Fin S128x64x64.rank) ∈ dot_S128x64x64_S128x64x64_S128x64x64_2_2_1_1_0_0.lhsNonContracting by decide)]
  rfl
theorem lhs_qk_2 (i : S128x64x64.Idx) (q : dot_S128x64x64_S128x64x64_S128x64x64_2_2_1_1_0_0.contr.Idx) :
    (dot_S128x64x64_S128x64x64_S128x64x64_2_2_1_1_0_0.lhsIdx i q 2).val = (q ⟨0, by decide⟩).val :=
  dot_S128x64x64_S128x64x64_S128x64x64_2_2_1_1_0_0.lhsIdx_val_of_single rfl i q
theorem rhs_qk_0 (i : S128x64x64.Idx) (q : dot_S128x64x64_S128x64x64_S128x64x64_2_2_1_1_0_0.contr.Idx) :
    (dot_S128x64x64_S128x64x64_S128x64x64_2_2_1_1_0_0.rhsIdx i q 0).val = (i 0).val := by
  unfold DotDims.rhsIdx
  rw [dif_pos (show (0 : Fin S128x64x64.rank) ∈ dot_S128x64x64_S128x64x64_S128x64x64_2_2_1_1_0_0.rhsBatch by decide)]
  rfl
theorem rhs_qk_1 (i : S128x64x64.Idx) (q : dot_S128x64x64_S128x64x64_S128x64x64_2_2_1_1_0_0.contr.Idx) :
    (dot_S128x64x64_S128x64x64_S128x64x64_2_2_1_1_0_0.rhsIdx i q 1).val = (i 2).val := by
  unfold DotDims.rhsIdx
  rw [dif_neg (show ¬(1 : Fin S128x64x64.rank) ∈ dot_S128x64x64_S128x64x64_S128x64x64_2_2_1_1_0_0.rhsBatch by decide), dif_pos (show (1 : Fin S128x64x64.rank) ∈ dot_S128x64x64_S128x64x64_S128x64x64_2_2_1_1_0_0.rhsNonContracting by decide)]
  rfl
theorem rhs_qk_2 (i : S128x64x64.Idx) (q : dot_S128x64x64_S128x64x64_S128x64x64_2_2_1_1_0_0.contr.Idx) :
    (dot_S128x64x64_S128x64x64_S128x64x64_2_2_1_1_0_0.rhsIdx i q 2).val = (q ⟨0, by decide⟩).val :=
  dot_S128x64x64_S128x64x64_S128x64x64_2_2_1_1_0_0.rhsIdx_val_of_single rfl i q

/-- The first product into zero at `(p, s, t)`: the sum over `d` of the left block at `(p, s, d)` times the right at `(p, t, d)`. -/
theorem scores_apply (a b : FVec Ideal S128x64x64 .bf16) (p : Fin 128) (s t : Fin 64) :
    matmul (F := Ideal) dot_S128x64x64_S128x64x64_S128x64x64_2_2_1_1_0_0 none a b (constant (F := Ideal) S128x64x64 .f32 0x00000000#32) (ix3 p s t)
      = ∑ d : Fin 64, a (ix3 p s d) * b (ix3 p t d) := by
  simp only [matmul]
  rw [Ideal.matmul_constant_zero_apply, ← Equiv.sum_comp (contrEquiv1 dot_S128x64x64_S128x64x64_S128x64x64_2_2_1_1_0_0 64 rfl rfl).symm]
  refine Finset.sum_congr rfl fun d _ => ?_
  have hk := contrEquiv1_symm_val dot_S128x64x64_S128x64x64_S128x64x64_2_2_1_1_0_0 64 rfl rfl d
  have el : dot_S128x64x64_S128x64x64_S128x64x64_2_2_1_1_0_0.lhsIdx (ix3 p s t) ((contrEquiv1 dot_S128x64x64_S128x64x64_S128x64x64_2_2_1_1_0_0 64 rfl rfl).symm d) = ix3 p s d := funext fun a => Fin.ext (by
    match a with
    | ⟨0, _⟩ => exact lhs_qk_0 _ _
    | ⟨1, _⟩ => exact lhs_qk_1 _ _
    | ⟨2, _⟩ => exact (lhs_qk_2 _ _).trans hk)
  have er : dot_S128x64x64_S128x64x64_S128x64x64_2_2_1_1_0_0.rhsIdx (ix3 p s t) ((contrEquiv1 dot_S128x64x64_S128x64x64_S128x64x64_2_2_1_1_0_0 64 rfl rfl).symm d) = ix3 p t d := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_av_0 (i : S128x64x64.Idx) (q : dot_S128x64x64_S128x64x64_S128x64x64_2_1_1_2_0_0.contr.Idx) :
    (dot_S128x64x64_S128x64x64_S128x64x64_2_1_1_2_0_0.lhsIdx i q 0).val = (i 0).val := by
  unfold DotDims.lhsIdx
  rw [dif_pos (show (0 : Fin S128x64x64.rank) ∈ dot_S128x64x64_S128x64x64_S128x64x64_2_1_1_2_0_0.lhsBatch by decide)]
  rfl
theorem lhs_av_1 (i : S128x64x64.Idx) (q : dot_S128x64x64_S128x64x64_S128x64x64_2_1_1_2_0_0.contr.Idx) :
    (dot_S128x64x64_S128x64x64_S128x64x64_2_1_1_2_0_0.lhsIdx i q 1).val = (i 1).val := by
  unfold DotDims.lhsIdx
  rw [dif_neg (show ¬(1 : Fin S128x64x64.rank) ∈ dot_S128x64x64_S128x64x64_S128x64x64_2_1_1_2_0_0.lhsBatch by decide), dif_pos (show (1 : Fin S128x64x64.rank) ∈ dot_S128x64x64_S128x64x64_S128x64x64_2_1_1_2_0_0.lhsNonContracting by decide)]
  rfl
theorem lhs_av_2 (i : S128x64x64.Idx) (q : dot_S128x64x64_S128x64x64_S128x64x64_2_1_1_2_0_0.contr.Idx) :
    (dot_S128x64x64_S128x64x64_S128x64x64_2_1_1_2_0_0.lhsIdx i q 2).val = (q ⟨0, by decide⟩).val :=
  dot_S128x64x64_S128x64x64_S128x64x64_2_1_1_2_0_0.lhsIdx_val_of_single rfl i q
theorem rhs_av_0 (i : S128x64x64.Idx) (q : dot_S128x64x64_S128x64x64_S128x64x64_2_1_1_2_0_0.contr.Idx) :
    (dot_S128x64x64_S128x64x64_S128x64x64_2_1_1_2_0_0.rhsIdx i q 0).val = (i 0).val := by
  unfold DotDims.rhsIdx
  rw [dif_pos (show (0 : Fin S128x64x64.rank) ∈ dot_S128x64x64_S128x64x64_S128x64x64_2_1_1_2_0_0.rhsBatch by decide)]
  rfl
theorem rhs_av_1 (i : S128x64x64.Idx) (q : dot_S128x64x64_S128x64x64_S128x64x64_2_1_1_2_0_0.contr.Idx) :
    (dot_S128x64x64_S128x64x64_S128x64x64_2_1_1_2_0_0.rhsIdx i q 1).val = (q ⟨0, by decide⟩).val :=
  dot_S128x64x64_S128x64x64_S128x64x64_2_1_1_2_0_0.rhsIdx_val_of_single rfl i q
theorem rhs_av_2 (i : S128x64x64.Idx) (q : dot_S128x64x64_S128x64x64_S128x64x64_2_1_1_2_0_0.contr.Idx) :
    (dot_S128x64x64_S128x64x64_S128x64x64_2_1_1_2_0_0.rhsIdx i q 2).val = (i 2).val := by
  unfold DotDims.rhsIdx
  rw [dif_neg (show ¬(2 : Fin S128x64x64.rank) ∈ dot_S128x64x64_S128x64x64_S128x64x64_2_1_1_2_0_0.rhsBatch by decide), dif_pos (show (2 : Fin S128x64x64.rank) ∈ dot_S128x64x64_S128x64x64_S128x64x64_2_1_1_2_0_0.rhsNonContracting by decide)]
  rfl

/-- The second product into zero at `(p, s, d)`: the sum over `t` of the left block at `(p, s, t)` times the right at `(p, t, d)`. -/
theorem attend_apply (a b : FVec Ideal S128x64x64 .bf16) (p : Fin 128) (s d : Fin 64) :
    matmul (F := Ideal) dot_S128x64x64_S128x64x64_S128x64x64_2_1_1_2_0_0 none a b (constant (F := Ideal) S128x64x64 .f32 0x00000000#32) (ix3 p s d)
      = ∑ t : Fin 64, a (ix3 p s t) * b (ix3 p t d) := by
  simp only [matmul]
  rw [Ideal.matmul_constant_zero_apply, ← Equiv.sum_comp (contrEquiv1 dot_S128x64x64_S128x64x64_S128x64x64_2_1_1_2_0_0 64 rfl rfl).symm]
  refine Finset.sum_congr rfl fun t _ => ?_
  have hk := contrEquiv1_symm_val dot_S128x64x64_S128x64x64_S128x64x64_2_1_1_2_0_0 64 rfl rfl t
  have el : dot_S128x64x64_S128x64x64_S128x64x64_2_1_1_2_0_0.lhsIdx (ix3 p s d) ((contrEquiv1 dot_S128x64x64_S128x64x64_S128x64x64_2_1_1_2_0_0 64 rfl rfl).symm t) = ix3 p s t := funext fun a => Fin.ext (by
    match a with
    | ⟨0, _⟩ => exact lhs_av_0 _ _
    | ⟨1, _⟩ => exact lhs_av_1 _ _
    | ⟨2, _⟩ => exact (lhs_av_2 _ _).trans hk)
  have er : dot_S128x64x64_S128x64x64_S128x64x64_2_1_1_2_0_0.rhsIdx (ix3 p s d) ((contrEquiv1 dot_S128x64x64_S128x64x64_S128x64x64_2_1_1_2_0_0 64 rfl rfl).symm t) = ix3 p t d := funext fun a => Fin.ext (by
    match a with
    | ⟨0, _⟩ => exact rhs_av_0 _ _
    | ⟨1, _⟩ => exact (rhs_av_1 _ _).trans hk
    | ⟨2, _⟩ => exact rhs_av_2 _ _)
  rw [el, er]

/-! ## The lane reductions and the re-lay along the lanes -/

/-- A value per (row, query) laid out as a unit last axis and spread over the 64 lanes reads back the value. -/
theorem relay_apply (y : FVec Ideal S128x64 .f32) (hc : S128x64.ShapeCasts S128x64x1) (hb : S128x64x1.Broadcasts S128x64x64)
    (p : Fin 128) (s t : Fin 64) :
    broadcastTo S128x64x64 (shapeCast S128x64x1 y hc) hb (ix3 p s t) = y (ix2 p s) := by
  refine (broadcastTo_apply _ hb (ix3 p s t) (ix3 p s (0 : Fin 1)) (fun a => ?_)).trans
    (shapeCast_apply y hc (ix3 p s (0 : Fin 1)) (ix2 p s) ?_)
  · match a with
    | ⟨0, _⟩ => show p.val = if (128 : Nat) = 1 then 0 else p.val; rw [if_neg (by decide)]
    | ⟨1, _⟩ => show s.val = if (64 : Nat) = 1 then 0 else s.val; rw [if_neg (by decide)]
    | ⟨2, _⟩ => show 0 = if (1 : Nat) = 1 then 0 else t.val; rw [if_pos rfl]
  · rw [Shape.rowMajor_val_two, Shape.rowMajor_val_three]
    show p.val * 64 + s.val = (p.val * 64 + s.val) * 1 + 0
    omega

/-- The dropped last axis put back: the index `(p, s)` with lane `t` inserted is `(p, s, t)`. -/
theorem lift_lane (h : S128x64x64.Reduces [2] S128x64) (p : Fin 128) (s t : Fin 64) : h.lift (ix2 p s) t = ix3 p s t :=
  funext fun a => Fin.ext (by match a with | ⟨0, _⟩ => rfl | ⟨1, _⟩ => rfl | ⟨2, _⟩ => rfl)

/-- The lane maximum from −∞ at `(p, s)`: the fold of `max` from −∞ over the 64 lanes. -/
theorem laneMax_apply (x : FVec Ideal S128x64x64 .f32) (h : S128x64x64.Reduces [2] S128x64) (hφ : FKind.Formats .f32)
    (hacc : (0xFF800000#32 : BitVec 32) = FKind.maximumf.neutral .f32 hφ) (p : Fin 128) (s : Fin 64) :
    multiReduction (F := Ideal) .maximumf [2] S128x64 x 0xFF800000#32 h hφ hacc (ix2 p s)
      = (Finset.univ : Finset (Fin 64)).fold max negInf (fun t => x (ix3 p s t)) := by
  refine (Ideal.multiReduction_maximumf_single x 0xFF800000#32 h hφ hacc (ix2 p s)).trans ?_
  have hf : (x ∘ h.lift (ix2 p s)) = fun t : Fin 64 => x (ix3 p s t) := funext fun t => congrArg x (lift_lane h p s t)
  rw [hf]
  rfl

/-- The lane sum from zero at `(p, s)`: the sum over the 64 lanes. -/
theorem laneSum_apply (x : FVec Ideal S128x64x64 .f32) (h : S128x64x64.Reduces [2] S128x64) (hφ : FKind.Formats .f32)
    (hacc : (0x00000000#32 : BitVec 32) = FKind.add.neutral .f32 hφ) (p : Fin 128) (s : Fin 64) :
    multiReduction (F := Ideal) .add [2] S128x64 x 0x00000000#32 h hφ hacc (ix2 p s) = ∑ t : Fin 64, x (ix3 p s t) := by
  refine (Ideal.multiReduction_add_single x 0x00000000#32 h hφ hacc (ix2 p s)).trans ?_
  exact Finset.sum_congr rfl fun t _ => congrArg x (lift_lane h p s t)

/-! ## The body's stages as block functions -/

/-- The softmax along the lanes of a block of scores, in the body's own operations. -/
def softmaxBlk (M : FVec Ideal S128x64x64 .f32) : FVec Ideal S128x64x64 .f32 :=
  have v14 : FVec Ideal S128x64 .f32 := multiReduction .maximumf [2] S128x64 M 0xFF800000#32 reduces_S128x64x64_S128x64 (.inl rfl) rfl
  have cst_13 : Ideal .f32 := Scalar.ofBits .f32 0xFF800000#32
  have v15 : FVec Ideal S128x64 .f32 := broadcast S128x64 cst_13
  have v16 : FVec Ideal S128x64 .f32 := maximumf v15 v14
  have v17 : FVec Ideal S128x64x1 .f32 := shapeCast S128x64x1 v16 shapeCasts_S128x64_S128x64x1
  have v18 : FVec Ideal S128x64x64 .f32 := broadcastTo S128x64x64 v17 broadcasts_S128x64x1_S128x64x64
  have v19 : FVec Ideal S128x64x64 .f32 := subf M v18
  have v20 : FVec Ideal S128x64x64 .f32 := exp v19
  have v21 : FVec Ideal S128x64 .f32 := multiReduction .add [2] S128x64 v20 0x00000000#32 reduces_S128x64x64_S128x64 (.inl rfl) rfl
  have v22 : FVec Ideal S128x64x1 .f32 := shapeCast S128x64x1 v21 shapeCasts_S128x64_S128x64x1
  have v23 : FVec Ideal S128x64x64 .f32 := broadcastTo S128x64x64 v22 broadcasts_S128x64x1_S128x64x64
  divf v20 v23

/-- The scores of a block: the first product of the q and k blocks. -/
def scoresBlk (x0 x1 : Vec Ideal S128x64x64 .f32) : FVec Ideal S128x64x64 .f32 :=
  matmul dot_S128x64x64_S128x64x64_S128x64x64_2_2_1_1_0_0 none
    (truncf .bf16 (shapeCast S128x64x64 x0 shapeCasts_S128x64x64_S128x64x64) bitsLt_bf16_f32)
    (truncf .bf16 (shapeCast S128x64x64 x1 shapeCasts_S128x64x64_S128x64x64) bitsLt_bf16_f32)
    (constant S128x64x64 .f32 0x00000000#32)

/-- The body's first stored value is the softmax of the scores times the mask. -/
theorem pay2_eq (x0 x1 : Vec Ideal S128x64x64 .f32) (x3 : Vec Ideal S128x64x64 .i32) :
    k0_pay2 (F := Ideal) x0 x1 x3 = mulf (softmaxBlk (scoresBlk x0 x1)) (k0_pay1 (F := Ideal) x3) := rfl

/-- The body's second stored value is the second product of the first with the v block, times the mask. -/
theorem pay3_eq (x0 x1 x2 : Vec Ideal S128x64x64 .f32) (x3 : Vec Ideal S128x64x64 .i32) :
    k0_pay3 (F := Ideal) x0 x1 x2 x3
      = mulf (matmul dot_S128x64x64_S128x64x64_S128x64x64_2_1_1_2_0_0 none
          (truncf .bf16 (k0_pay2 (F := Ideal) x0 x1 x3) bitsLt_bf16_f32)
          (truncf .bf16 (shapeCast S128x64x64 x2 shapeCasts_S128x64x64_S128x64x64) bitsLt_bf16_f32)
          (constant S128x64x64 .f32 0x00000000#32)) (k0_pay1 (F := Ideal) x3) := rfl

/-! ## The stages at an entry -/

/-- The mask word as the body converts it. -/
theorem pay1_apply (x3 : Vec Ideal S128x64x64 .i32) (j : S128x64x64.Idx) : k0_pay1 (F := Ideal) x3 j = maskWord (x3 j) := by
  unfold k0_pay1
  simp only [shapeCast_self]
  rfl

/-- The scores of a block at `(p, s, t)`. -/
theorem scoresBlk_apply (x0 x1 : Vec Ideal S128x64x64 .f32) (p : Fin 128) (s t : Fin 64) :
    scoresBlk x0 x1 (ix3 p s t) = score (fun d => x0 (ix3 p s d)) (fun u d => x1 (ix3 p u d)) t := by
  unfold scoresBlk
  rw [shapeCast_self, shapeCast_self]
  exact scores_apply _ _ p s t

/-- The softmax stage at `(p, s, t)`: the softmax of the row of scores `(p, s, ·)`. -/
theorem softmaxBlk_apply (M : FVec Ideal S128x64x64 .f32) (p : Fin 128) (s t : Fin 64) :
    softmaxBlk M (ix3 p s t) = softmax (fun u => M (ix3 p s u)) t := by
  have hmax : ∀ u : Fin 64, (broadcastTo S128x64x64 (shapeCast S128x64x1 (maximumf (broadcast S128x64 (Scalar.ofBits (F := Ideal) .f32 0xFF800000#32))
        (multiReduction (F := Ideal) .maximumf [2] S128x64 M 0xFF800000#32 reduces_S128x64x64_S128x64 (.inl rfl) rfl)) shapeCasts_S128x64_S128x64x1)
        broadcasts_S128x64x1_S128x64x64) (ix3 p s u) = rowMax (fun u => M (ix3 p s u)) := fun u => by
    refine (relay_apply _ _ _ p s u).trans ?_
    exact congrArg (max negInf) (laneMax_apply M reduces_S128x64x64_S128x64 (.inl rfl) rfl p s)
  have hexp : ∀ u : Fin 64, (exp (subf M (broadcastTo S128x64x64 (shapeCast S128x64x1 (maximumf (broadcast S128x64 (Scalar.ofBits (F := Ideal) .f32 0xFF800000#32))
        (multiReduction (F := Ideal) .maximumf [2] S128x64 M 0xFF800000#32 reduces_S128x64x64_S128x64 (.inl rfl) rfl)) shapeCasts_S128x64_S128x64x1)
        broadcasts_S128x64x1_S128x64x64))) (ix3 p s u) = expShift (fun u => M (ix3 p s u)) u := fun u => by
    show Ideal.exp (M (ix3 p s u) - _) = _
    rw [hmax u]
    rfl
  unfold softmaxBlk
  show Ideal.div _ _ = _
  rw [hexp t, relay_apply]
  unfold softmax
  refine congrArg (Ideal.div _) ((laneSum_apply _ reduces_S128x64x64_S128x64 (.inl rfl) rfl p s).trans ?_)
  exact Finset.sum_congr rfl fun u _ => hexp u

/-- The body's first stored value at `(p, s, t)` is the weight of the row formula over the blocks. -/
theorem pay2_apply (x0 x1 : Vec Ideal S128x64x64 .f32) (x3 : Vec Ideal S128x64x64 .i32) (p : Fin 128) (s t : Fin 64) :
    k0_pay2 (F := Ideal) x0 x1 x3 (ix3 p s t)
      = weight (fun d => x0 (ix3 p s d)) (fun u d => x1 (ix3 p u d)) (fun u => maskWord (x3 (ix3 p s u))) t := by
  rw [pay2_eq]
  show softmaxBlk (scoresBlk x0 x1) (ix3 p s t) * k0_pay1 (F := Ideal) x3 (ix3 p s t) = _
  rw [softmaxBlk_apply, pay1_apply]
  unfold weight
  have hs : (fun u => scoresBlk x0 x1 (ix3 p s u)) = score (fun d => x0 (ix3 p s d)) (fun u d => x1 (ix3 p u d)) :=
    funext fun u => scoresBlk_apply x0 x1 p s u
  rw [hs]

/-- The body's second stored value at `(p, s, d)` is the attended value of the row formula over the blocks. -/
theorem pay3_apply (x0 x1 x2 : Vec Ideal S128x64x64 .f32) (x3 : Vec Ideal S128x64x64 .i32) (p : Fin 128) (s d : Fin 64) :
    k0_pay3 (F := Ideal) x0 x1 x2 x3 (ix3 p s d)
      = output (fun e => x0 (ix3 p s e)) (fun u e => x1 (ix3 p u e)) (fun u => maskWord (x3 (ix3 p s u))) (fun u e => x2 (ix3 p u e)) d := by
  rw [pay3_eq]
  show matmul (F := Ideal) dot_S128x64x64_S128x64x64_S128x64x64_2_1_1_2_0_0 none _ _ _ (ix3 p s d) * k0_pay1 (F := Ideal) x3 (ix3 p s d) = _
  rw [attend_apply, pay1_apply, shapeCast_self]
  unfold output
  refine congrArg (· * _) (Finset.sum_congr rfl fun t _ => ?_)
  show k0_pay2 (F := Ideal) x0 x1 x3 (ix3 p s t) * x2 (ix3 p t d) = _
  rw [pay2_apply]

end Cert.KernelIdeal.Payload

end
-- ==== Proof.KernelArrays.lean ====
/-
  From blocks to arrays: after the run the two result arrays of the region hold the row formula over the flattened arrays.

  The grid has 24 points; at point `n` every window's block is rows `128·n … 128·n + 127` of its array, whole in the other
  two axes (the index maps are `(n, 0, 0)`, decided over the grid). So an entry `(p, s, d)` of a block at point `n` is the entry
  `(128·n + p, s, d)` of the array, the body's stored values at `(p, s, ·)` are the row formula of row `128·n + p`, and what
  point `n` writes back is block `n` of ONE function of the arrays. The 24 blocks cover the 3072 rows (row `r` lies in
  block `r / 128`), so each result array ends holding that function.
-/
import proofs.«151057_j39676907884806_1_alg».proof.Proof.Gen.KernelIdeal.Frame
import proofs.«151057_j39676907884806_1_alg».proof.Proof.KernelPayload
import Idealize.ShloMosaic.Lib.Pipeline.Value

set_option maxRecDepth 16384

noncomputable section

namespace Cert.KernelIdeal.Arrays

open Cert.KernelIdeal Cert.KernelIdeal.Gen Cert.KernelIdeal.Payload Cert.MaskedAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays as the region finds them, and the blocks, at their literal types -/

abbrev qarr (c : Dev nD) : Vec Ideal S3072x64x64 .f32 := V m c main_v0
abbrev karr (c : Dev nD) : Vec Ideal S3072x64x64 .f32 := V m c main_v1
abbrev varr (c : Dev nD) : Vec Ideal S3072x64x64 .f32 := V m c main_v2
abbrev marr (c : Dev nD) : Vec Ideal S3072x64x64 .i32 := V m c main_v4

abbrev qblk (c : Dev nD) (t : Fin cfg0.N) : Vec Ideal S128x64x64 .f32 := iblk m c 0 t
abbrev kblk (c : Dev nD) (t : Fin cfg0.N) : Vec Ideal S128x64x64 .f32 := iblk m c 1 t
abbrev vblk (c : Dev nD) (t : Fin cfg0.N) : Vec Ideal S128x64x64 .f32 := iblk m c 2 t
abbrev mblk (c : Dev nD) (t : Fin cfg0.N) : Vec Ideal S128x64x64 .i32 := iblk m c 3 t

/-- What the first result array ends holding: the weights of each row of the flattened arrays. -/
abbrev weightsArr (c : Dev nD) : Vec Ideal S3072x64x64 .f32 :=
  fun i => weightsFlat (qarr m c) (karr m c) (marr m c) (i 0) (i 1) (i 2)
/-- What the second result array ends holding: the attended values of each row. -/
abbrev outputsArr (c : Dev nD) : Vec Ideal S3072x64x64 .f32 :=
  fun i => outputsFlat (qarr m c) (karr m c) (varr m c) (marr m c) (i 0) (i 1) (i 2)

/-! ## The index maps over the grid -/

theorem hz3 : (![0, 0, 0] : Fin 3 → Nat) = fun _ => 0 := funext fun a => by fin_cases a <;> rfl

/-- Every window's block index at point `t` is `(t, 0, 0)` (decided over the 24 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

theorem point_lt (t : Fin cfg0.N) : t.val < 24 := lt_of_lt_of_eq t.isLt N_0

/-- Row `p` of the block at point `t` is row `128·t + p` of the array. -/
abbrev blockRow (t : Fin cfg0.N) (p : Fin 128) : Fin 3072 :=
  ⟨t.val * 128 + p.val, by have := point_lt t; have := p.isLt; omega⟩

/-! ## The input blocks read where the arrays hold them -/

theorem qblk_apply (c : Dev nD) (t : Fin cfg0.N) (p : Fin 128) (s d : Fin 64) :
    qblk m c t (ix3 p s d) = qarr m c (ix3 (blockRow t p) s d) := by
  obtain ⟨⟨e0, e1, e2⟩, -⟩ := idx_facts t
  show V m c main_v0 (((cfg0.win 0).blk t).view.emb (ix3 p s d)) = V m c main_v0 (ix3 (blockRow t p) s d)
  refine congrArg (V m c main_v0) (funext fun a => Fin.ext ?_)
  match a with
  | ⟨0, _⟩ => show win0_0.index t (0 : Fin 3) * 128 + 1 * p.val = t.val * 128 + p.val; omega
  | ⟨1, _⟩ => show win0_0.index t (1 : Fin 3) * 64 + 1 * s.val = s.val; omega
  | ⟨2, _⟩ => show win0_0.index t (2 : Fin 3) * 64 + 1 * d.val = d.val; omega

theorem kblk_apply (c : Dev nD) (t : Fin cfg0.N) (p : Fin 128) (s d : Fin 64) :
    kblk m c t (ix3 p s d) = karr m c (ix3 (blockRow t p) s d) := by
  obtain ⟨-, ⟨e0, e1, e2⟩, -⟩ := idx_facts t
  show V m c main_v1 (((cfg0.win 1).blk t).view.emb (ix3 p s d)) = V m c main_v1 (ix3 (blockRow t p) s d)
  refine congrArg (V m c main_v1) (funext fun a => Fin.ext ?_)
  match a with
  | ⟨0, _⟩ => show win0_1.index t (0 : Fin 3) * 128 + 1 * p.val = t.val * 128 + p.val; omega
  | ⟨1, _⟩ => show win0_1.index t (1 : Fin 3) * 64 + 1 * s.val = s.val; omega
  | ⟨2, _⟩ => show win0_1.index t (2 : Fin 3) * 64 + 1 * d.val = d.val; omega

theorem vblk_apply (c : Dev nD) (t : Fin cfg0.N) (p : Fin 128) (s d : Fin 64) :
    vblk m c t (ix3 p s d) = varr m c (ix3 (blockRow t p) s d) := by
  obtain ⟨-, -, ⟨e0, e1, e2⟩, -⟩ := idx_facts t
  show V m c main_v2 (((cfg0.win 2).blk t).view.emb (ix3 p s d)) = V m c main_v2 (ix3 (blockRow t p) s d)
  refine congrArg (V m c main_v2) (funext fun a => Fin.ext ?_)
  match a with
  | ⟨0, _⟩ => show win0_2.index t (0 : Fin 3) * 128 + 1 * p.val = t.val * 128 + p.val; omega
  | ⟨1, _⟩ => show win0_2.index t (1 : Fin 3) * 64 + 1 * s.val = s.val; omega
  | ⟨2, _⟩ => show win0_2.index t (2 : Fin 3) * 64 + 1 * d.val = d.val; omega

theorem mblk_apply (c : Dev nD) (t : Fin cfg0.N) (p : Fin 128) (s d : Fin 64) :
    mblk m c t (ix3 p s d) = marr m c (ix3 (blockRow t p) s d) := by
  obtain ⟨-, -, -, ⟨e0, e1, e2⟩, -⟩ := idx_facts t
  show V m c main_v4 (((cfg0.win 3).blk t).view.emb (ix3 p s d)) = V m c main_v4 (ix3 (blockRow t p) s d)
  refine congrArg (V m c main_v4) (funext fun a => Fin.ext ?_)
  match a with
  | ⟨0, _⟩ => show win0_3.index t (0 : Fin 3) * 128 + 1 * p.val = t.val * 128 + p.val; omega
  | ⟨1, _⟩ => show win0_3.index t (1 : Fin 3) * 64 + 1 * s.val = s.val; omega
  | ⟨2, _⟩ => show win0_3.index t (2 : Fin 3) * 64 + 1 * d.val = d.val; omega

/-- The entry `(p, s, d)` of a result block at point `t` sits at `(128·t + p, s, d)` of its array. -/
theorem emb4 (t : Fin cfg0.N) (p : Fin 128) (s d : Fin 64) :
    (((cfg0.win 4).blk t).view.emb (ix3 p s d) : S3072x64x64.Idx) = ix3 (blockRow t p) s d := by
  obtain ⟨-, -, -, -, ⟨e0, e1, e2⟩, -⟩ := idx_facts t
  refine funext fun a => Fin.ext ?_
  match a with
  | ⟨0, _⟩ => show win0_4.index t (0 : Fin 3) * 128 + 1 * p.val = t.val * 128 + p.val; omega
  | ⟨1, _⟩ => show win0_4.index t (1 : Fin 3) * 64 + 1 * s.val = s.val; omega
  | ⟨2, _⟩ => show win0_4.index t (2 : Fin 3) * 64 + 1 * d.val = d.val; omega

theorem emb5 (t : Fin cfg0.N) (p : Fin 128) (s d : Fin 64) :
    (((cfg0.win 5).blk t).view.emb (ix3 p s d) : S3072x64x64.Idx) = ix3 (blockRow t p) s d := by
  obtain ⟨-, -, -, -, -, ⟨e0, e1, e2⟩⟩ := idx_facts t
  refine funext fun a => Fin.ext ?_
  match a with
  | ⟨0, _⟩ => show win0_5.index t (0 : Fin 3) * 128 + 1 * p.val = t.val * 128 + p.val; omega
  | ⟨1, _⟩ => show win0_5.index t (1 : Fin 3) * 64 + 1 * s.val = s.val; omega
  | ⟨2, _⟩ => show win0_5.index t (2 : Fin 3) * 64 + 1 * d.val = d.val; omega

/-! ## What each point writes back -/

/-- The row formula's three row arguments, read off the blocks at point `t`, are those read off the arrays at row `128·t + p`. -/
theorem qrow_eq (c : Dev nD) (t : Fin cfg0.N) (p : Fin 128) (s : Fin 64) :
    (fun d => qblk m c t (ix3 p s d)) = fun d => qarr m c (ix3 (blockRow t p) s d) :=
  funext fun d => qblk_apply m c t p s d
theorem kmat_eq (c : Dev nD) (t : Fin cfg0.N) (p : Fin 128) :
    (fun u d => kblk m c t (ix3 p u d)) = fun u d => karr m c (ix3 (blockRow t p) u d) :=
  funext fun u => funext fun d => kblk_apply m c t p u d
theorem vmat_eq (c : Dev nD) (t : Fin cfg0.N) (p : Fin 128) :
    (fun u d => vblk m c t (ix3 p u d)) = fun u d => varr m c (ix3 (blockRow t p) u d) :=
  funext fun u => funext fun d => vblk_apply m c t p u d
theorem mrow_eq (c : Dev nD) (t : Fin cfg0.N) (p : Fin 128) (s : Fin 64) :
    (fun u => maskWord (mblk m c t (ix3 p s u))) = fun u => maskWord (marr m c (ix3 (blockRow t p) s u)) :=
  funext fun u => congrArg maskWord (mblk_apply m c t p s u)

/-- Point `t` writes back block `t` of the weights. -/
theorem flushed4_eq (c : Dev nD) (t : Fin cfg0.N) :
    (dats m 0 c).flushed 4 t = ((cfg0.win 4).blk t).view.read (Elt Ideal) (weightsArr m c) := by
  show (cfg0.win 4).cut (grid0.coords t) ((dats m 0 c).after 4 t) = _
  rw [after0_4]
  unfold out0_4
  rw [View.canon_unit_zero hz3]
  simp only [View.ld_unit_zero (S := S128x64x64) hz3]
  funext j
  obtain ⟨p, s, u, rfl⟩ : ∃ (p : Fin 128) (s u : Fin 64), j = ix3 p s u := ⟨j 0, j 1, j 2, eq_ix3 j⟩
  show k0_pay2 (F := Ideal) (qblk m c t) (kblk m c t) (mblk m c t) (ix3 p s u) = weightsArr m c (((cfg0.win 4).blk t).view.emb (ix3 p s u))
  rw [emb4]
  refine (pay2_apply (qblk m c t) (kblk m c t) (mblk m c t) p s u).trans ?_
  show _ = weightsFlat (qarr m c) (karr m c) (marr m c) (blockRow t p) s u
  unfold weightsFlat
  rw [qrow_eq, kmat_eq, mrow_eq]

/-- Point `t` writes back block `t` of the attended values. -/
theorem flushed5_eq (c : Dev nD) (t : Fin cfg0.N) :
    (dats m 0 c).flushed 5 t = ((cfg0.win 5).blk t).view.read (Elt Ideal) (outputsArr m c) := by
  show (cfg0.win 5).cut (grid0.coords t) ((dats m 0 c).after 5 t) = _
  rw [after0_5]
  unfold out0_5
  rw [View.canon_unit_zero hz3]
  simp only [View.ld_unit_zero (S := S128x64x64) hz3]
  funext j
  obtain ⟨p, s, d, rfl⟩ : ∃ (p : Fin 128) (s d : Fin 64), j = ix3 p s d := ⟨j 0, j 1, j 2, eq_ix3 j⟩
  show k0_pay3 (F := Ideal) (qblk m c t) (kblk m c t) (vblk m c t) (mblk m c t) (ix3 p s d) = outputsArr m c (((cfg0.win 5).blk t).view.emb (ix3 p s d))
  rw [emb5]
  refine (pay3_apply (qblk m c t) (kblk m c t) (vblk m c t) (mblk m c t) p s d).trans ?_
  show _ = outputsFlat (qarr m c) (karr m c) (varr m c) (marr m c) (blockRow t p) s d
  unfold outputsFlat
  rw [qrow_eq, kmat_eq, vmat_eq, mrow_eq]

/-! ## The blocks cover the arrays -/

theorem mem_blk4 (t : Fin cfg0.N) (i : S3072x64x64.Idx) :
    i ∈ ((cfg0.win 4).blk t).view.set ↔ ∀ a : Fin 3, win0_4.index t a * S128x64x64.size a ≤ (i a).val ∧ (i a).val < win0_4.index t a * S128x64x64.size a + S128x64x64.size a := by
  show i ∈ ((View.whole main_v5_0).slice (win0_4.rect t)).set ↔ _
  rw [View.set_slice_whole, Rect.mem_set_unit]
  exact Iff.rfl

theorem mem_blk5 (t : Fin cfg0.N) (i : S3072x64x64.Idx) :
    i ∈ ((cfg0.win 5).blk t).view.set ↔ ∀ a : Fin 3, win0_5.index t a * S128x64x64.size a ≤ (i a).val ∧ (i a).val < win0_5.index t a * S128x64x64.size a + S128x64x64.size a := by
  show i ∈ ((View.whole main_v5_1).slice (win0_5.rect t)).set ↔ _
  rw [View.set_slice_whole, Rect.mem_set_unit]
  exact Iff.rfl

/-- The point whose block holds row `r`: `r / 128`. -/
theorem point_of_row (i : S3072x64x64.Idx) : ∃ t : Fin cfg0.N, t.val = (i 0).val / 128 := by
  have hi0 : (i 0).val < 3072 := (i 0).isLt
  exact ⟨⟨(i 0).val / 128, by rw [show cfg0.N = 24 from N_0]; omega⟩, rfl⟩

theorem cover4 (i : S3072x64x64.Idx) : ∃ t : Fin cfg0.N, (cfg0.win 4).flush t = true ∧ i ∈ ((cfg0.win 4).blk t).view.set := by
  have hi0 : (i 0).val < 3072 := (i 0).isLt
  have hi1 : (i 1).val < 64 := (i 1).isLt
  have hi2 : (i 2).val < 64 := (i 2).isLt
  obtain ⟨t, ht⟩ := point_of_row i
  obtain ⟨-, -, -, -, ⟨e0, e1, e2⟩, -⟩ := idx_facts t
  refine ⟨t, flush0_4 t, ?_⟩
  rw [mem_blk4]
  intro a
  match a with
  | ⟨0, _⟩ => show win0_4.index t (0 : Fin 3) * 128 ≤ (i 0).val ∧ (i 0).val < win0_4.index t (0 : Fin 3) * 128 + 128; omega
  | ⟨1, _⟩ => show win0_4.index t (1 : Fin 3) * 64 ≤ (i 1).val ∧ (i 1).val < win0_4.index t (1 : Fin 3) * 64 + 64; omega
  | ⟨2, _⟩ => show win0_4.index t (2 : Fin 3) * 64 ≤ (i 2).val ∧ (i 2).val < win0_4.index t (2 : Fin 3) * 64 + 64; omega

theorem cover5 (i : S3072x64x64.Idx) : ∃ t : Fin cfg0.N, (cfg0.win 5).flush t = true ∧ i ∈ ((cfg0.win 5).blk t).view.set := by
  have hi0 : (i 0).val < 3072 := (i 0).isLt
  have hi1 : (i 1).val < 64 := (i 1).isLt
  have hi2 : (i 2).val < 64 := (i 2).isLt
  obtain ⟨t, ht⟩ := point_of_row i
  obtain ⟨-, -, -, -, -, ⟨e0, e1, e2⟩⟩ := idx_facts t
  refine ⟨t, flush0_5 t, ?_⟩
  rw [mem_blk5]
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 64 ≤ (i 1).val ∧ (i 1).val < win0_5.index t (1 : Fin 3) * 64 + 64; omega
  | ⟨2, _⟩ => show win0_5.index t (2 : Fin 3) * 64 ≤ (i 2).val ∧ (i 2).val < win0_5.index t (2 : Fin 3) * 64 + 64; omega

/-! ## The two result arrays after the run -/

theorem final4 (c : Dev nD) : (dats m 0 c).arrAt 4 cfg0.N = weightsArr m c :=
  (dats m 0 c).arrAt_eq_of_cover 4 (weightsArr m c) (fun t _ => flushed4_eq m c t) cover4

theorem final5 (c : Dev nD) : (dats m 0 c).arrAt 5 cfg0.N = outputsArr m c :=
  (dats m 0 c).arrAt_eq_of_cover 5 (outputsArr m c) (fun t _ => flushed5_eq m c t) cover5

end Cert.KernelIdeal.Arrays

end
-- ==== Proof.KernelRun.lean ====
/-
  The whole kernel program: its two results are the row formula over the four-axis arguments.

  Before the region the host flattens q, k, v and the mask to [3072, 64, 64] and widens the mask's bits to 32-bit words;
  the region leaves the weights and the attended values of every flattened row in its two result arrays; after it the host
  casts both back to [64, 48, 64, 64]. Flattening sends `(b, h)` to row `48·b + h` and the cast back undoes it, and a widened
  bit read through the body's test is the bit, so the results are the row formula of rows `(b, h)` of the arguments.
-/
import proofs.«151057_j39676907884806_1_alg».proof.Proof.KernelArrays
import Idealize.ShloMosaic.Lib.StableHlo.Run

set_option maxRecDepth 16384

noncomputable section

namespace Cert.KernelIdeal.Whole

open Cert.KernelIdeal Cert.KernelIdeal.Gen Cert.KernelIdeal.Arrays Cert.MaskedAttn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The host lines before the region -/

theorem qarr_eq (c : Dev nD) :
    qarr m c = shapeCast S3072x64x64 (m ((c : Thread nD τ).loc main_arg0)) shapeCasts_S64x48x64x64_S3072x64x64 := by
  show StableHlo.after hostOps0 (fun b => m (c, b)) (Proc.devRef .tc main_v0) = _
  after_results
  rfl

theorem karr_eq (c : Dev nD) :
    karr m c = shapeCast S3072x64x64 (m ((c : Thread nD τ).loc main_arg1)) shapeCasts_S64x48x64x64_S3072x64x64 := by
  show StableHlo.after hostOps0 (fun b => m (c, b)) (Proc.devRef .tc main_v1) = _
  after_results
  rfl

theorem varr_eq (c : Dev nD) :
    varr m c = shapeCast S3072x64x64 (m ((c : Thread nD τ).loc main_arg2)) shapeCasts_S64x48x64x64_S3072x64x64 := by
  show StableHlo.after hostOps0 (fun b => m (c, b)) (Proc.devRef .tc main_v2) = _
  after_results
  rfl

theorem marr_eq (c : Dev nD) :
    marr m c = extui 32 (shapeCast S3072x64x64 (m ((c : Thread nD τ).loc main_arg3)) shapeCasts_S64x48x64x64_S3072x64x64) natLt_1_32 := by
  show StableHlo.after hostOps0 (fun b => m (c, b)) (Proc.devRef .tc main_v4) = _
  after_results
  rfl

/-! ## The host lines after the region -/

/-- The first result: the region's first result array cast back to four axes. -/
theorem tail_v6 (c : Dev nD) :
    Pipeline.afterTail₀ cfgs (dats m) 0 (V0 m) [hostOps1] c main_v6
      = shapeCast S64x48x64x64 (weightsArr m c) shapeCasts_S3072x64x64_S64x48x64x64 := by
  have h := (Pipeline.withArrays_arr spec0 launch0.win.arr_inj c (V0 m c) (fun w => (dats m 0 c).arrAt w cfg0.N) 4).trans (final4 m c)
  unfold Pipeline.afterTail₀
  show StableHlo.after hostOps1 _ (Proc.devRef .tc main_v6) = _
  after_results
  exact congrArg (fun A => shapeCast S64x48x64x64 A shapeCasts_S3072x64x64_S64x48x64x64) h

/-- The second result likewise. -/
theorem tail_v7 (c : Dev nD) :
    Pipeline.afterTail₀ cfgs (dats m) 0 (V0 m) [hostOps1] c main_v7
      = shapeCast S64x48x64x64 (outputsArr m c) shapeCasts_S3072x64x64_S64x48x64x64 := by
  have h := (Pipeline.withArrays_arr spec0 launch0.win.arr_inj c (V0 m c) (fun w => (dats m 0 c).arrAt w cfg0.N) 5).trans (final5 m c)
  unfold Pipeline.afterTail₀
  show StableHlo.after hostOps1 _ (Proc.devRef .tc main_v7) = _
  after_results
  exact congrArg (fun A => shapeCast S64x48x64x64 A shapeCasts_S3072x64x64_S64x48x64x64) h

/-! ## The two results over the arguments -/

/-- The first result at `(b, h, s, t)`: the weight of row `(b, h)`, query `s`, key `t` of the arguments. -/
theorem result_v6 (c : Dev nD) :
    Pipeline.afterTail₀ cfgs (dats m) 0 (V0 m) [hostOps1] c main_v6
      = fun i : Four.Idx => weightsFour (m ((c : Thread nD τ).loc main_arg0)) (m ((c : Thread nD τ).loc main_arg1))
          (m ((c : Thread nD τ).loc main_arg3)) (i 0) (i 1) (i 2) (i 3) := by
  rw [tail_v6]
  show shapeCast S64x48x64x64 (fun i : Flat.Idx => weightsFlat (qarr m c) (karr m c) (marr m c) (i 0) (i 1) (i 2)) _ = _
  rw [qarr_eq, karr_eq, marr_eq]
  exact weights_unflatten _ _ _ _ _ _

/-- The second result at `(b, h, s, d)`: the attended value of row `(b, h)`, query `s`, feature `d`. -/
theorem result_v7 (c : Dev nD) :
    Pipeline.afterTail₀ cfgs (dats m) 0 (V0 m) [hostOps1] c main_v7
      = fun i : Four.Idx => outputsFour (m ((c : Thread nD τ).loc main_arg0)) (m ((c : Thread nD τ).loc main_arg1))
          (m ((c : Thread nD τ).loc main_arg2)) (m ((c : Thread nD τ).loc main_arg3)) (i 0) (i 1) (i 2) (i 3) := by
  rw [tail_v7]
  show shapeCast S64x48x64x64 (fun i : Flat.Idx => outputsFlat (qarr m c) (karr m c) (varr m c) (marr m c) (i 0) (i 1) (i 2)) _ = _
  rw [qarr_eq, karr_eq, varr_eq, marr_eq]
  exact outputs_unflatten _ _ _ _ _ _ _

/-! ## The run -/

/-- Every weakly fair execution of the kernel program ends with its two results at the row formula of the arguments and
    the arguments unchanged. -/
theorem run : θ_run defs (onTc (τ := τ) (main (F := Ideal))) ⟨m, fun _ => 0, ρ⟩ fun r => ∀ c : Dev nD,
      r.2.mem ((c.tc : Thread nD τ).loc main_v6)
          = (fun i : Four.Idx => weightsFour (m ((c : Thread nD τ).loc main_arg0)) (m ((c : Thread nD τ).loc main_arg1))
              (m ((c : Thread nD τ).loc main_arg3)) (i 0) (i 1) (i 2) (i 3))
      ∧ r.2.mem ((c.tc : Thread nD τ).loc main_v7)
          = (fun i : Four.Idx => outputsFour (m ((c : Thread nD τ).loc main_arg0)) (m ((c : Thread nD τ).loc main_arg1))
              (m ((c : Thread nD τ).loc main_arg2)) (m ((c : Thread nD τ).loc main_arg3)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (result_v6 m c),
     ((h c).2 main_v7 (Pipeline.mem_restRefs_of main_v7 (by decide) (by decide))).trans (result_v7 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Whole

end
-- ==== Proof.lean ====
/-
  Attention with the mask applied after the softmax, `softmax(q·kᵀ)·mask` and `((softmax(q·kᵀ)·mask)·v)·mask` over
  [64, 48, 64, 64] arrays: a kernel that flattens the two leading axes to 3072 rows, works through them in 24 blocks of 128
  rows and casts its two results back, against the same formula written with four-axis contractions.

  On the extended reals both programs compute, for every row `(b, h)` and query `s`, the same row formula
  (Proof/Spec.lean): the scores `Σ_d q·k`, their maximum from −∞, the shifted exponentials, their sum from zero, the
  quotient, the product with the mask entry read as 0 or 1, the sum against `v`, and the mask entry again. The kernel's
  side is Proof/KernelPayload.lean (the body at a block entry), Proof/KernelArrays.lean (the 24 blocks cover the arrays) and
  Proof/KernelRun.lean (the flattening before the region and the casts after it); the reference's side is
  Proof/RefStages.lean. The two sides agree term by term: the changes of float format are the identity, a product into a
  zero accumulator is the plain sum, the two row maxima are the same fold of `max`, and a mask bit widened to a word and
  tested against zero is the bit. No step needs the inputs to be finite. The idealization rewrote no operation, so there is
  nothing to preserve; the three frames are the kernels' generated frames and the reference's generated run.
-/
import proofs.«151057_j39676907884806_1_alg».proof.Defs
import proofs.«151057_j39676907884806_1_alg».proof.Proof.Gen.Kernel
import proofs.«151057_j39676907884806_1_alg».proof.Proof.Gen.Kernel.Skeleton
import proofs.«151057_j39676907884806_1_alg».proof.Proof.Gen.Kernel.Launch
import proofs.«151057_j39676907884806_1_alg».proof.Proof.Gen.Kernel.Points
import proofs.«151057_j39676907884806_1_alg».proof.Proof.Gen.Kernel.Frame
import proofs.«151057_j39676907884806_1_alg».proof.Proof.Gen.KernelIdeal
import proofs.«151057_j39676907884806_1_alg».proof.Proof.Gen.KernelIdeal.Skeleton
import proofs.«151057_j39676907884806_1_alg».proof.Proof.Gen.KernelIdeal.Launch
import proofs.«151057_j39676907884806_1_alg».proof.Proof.Gen.KernelIdeal.Points
import proofs.«151057_j39676907884806_1_alg».proof.Proof.Gen.KernelIdeal.Frame
import proofs.«151057_j39676907884806_1_alg».proof.Proof.Gen.ReferenceIdeal
import proofs.«151057_j39676907884806_1_alg».proof.Proof.Gen.Pre_finite_inputs
import proofs.«151057_j39676907884806_1_alg».proof.Proof.Gen.ReferenceIdeal.Run
import proofs.«151057_j39676907884806_1_alg».proof.Proof.Gen.ReferenceIdeal.Read
import proofs.«151057_j39676907884806_1_alg».proof.Proof.RefStages
import proofs.«151057_j39676907884806_1_alg».proof.Proof.KernelRun
import Idealize.ShloMosaic.Adequacy
import Idealize.ShloMosaic.Init

noncomputable section

namespace Cert.Proof

open Idealize.ShloMosaic Idealize.SL.Sem Cert.MaskedAttn

/-- The word-level kernel runs and keeps its arguments: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its generated run with the two results dropped. -/
theorem frame_referenceIdeal : Cert.frame_ReferenceIdeal := fun m ρ _ =>
  (θ_run Cert.ReferenceIdeal.defs _ _).mono (fun _ h c => ⟨(h c).1, (h c).2.1, (h c).2.2.1, (h c).2.2.2.1⟩)
    (Cert.ReferenceIdeal.Value.run (F := Ideal) m ρ)

/-- The idealization rewrote nothing. -/
theorem preserves : Cert.preserves_Kernel_KernelIdeal := trivial

/-- From memories agreeing on q, k, v and the mask, both programs end with the weights and the attended values of the row
    formula of those arguments, and with the arguments unchanged. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => (fun i : Four.Idx => weightsFour
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (i 0) (i 1) (i 2) (i 3)),
    fun c => (fun i : Four.Idx => outputsFour
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2) (i 3)),
    ?_, ?_⟩
  · exact (θ_run Cert.KernelIdeal.defs _ _).mono
      (fun r h c => ⟨(h c).2.2.1, (h c).2.2.2.1, (h c).2.2.2.2.1, (h c).2.2.2.2.2, (h c).1, (h c).2.1,
        (h c).2.2.1, (h c).2.2.2.1, (h c).2.2.2.2.1, (h c).2.2.2.2.2⟩)
      (Cert.KernelIdeal.Whole.run m ρ)
  · refine (θ_run Cert.ReferenceIdeal.defs _ _).mono (fun r h c => ?_) (Cert.ReferenceIdeal.Value.run (F := Ideal) m' ρ')
    obtain ⟨h0, h1, h2, h3, h13, h16, k0, k1, k2, k3⟩ := h c
    obtain ⟨a0, a1, a2, a3⟩ := hagree c
    refine ⟨h0.trans a0, h1.trans a1, h2.trans a2, h3.trans a3, h13.trans ?_, h16.trans ?_, k0, k1, k2, k3⟩
    · rw [Cert.ReferenceIdeal.Read.val_main_v13_eq, Cert.ReferenceIdeal.Stages.weights_ref_array, a0, a1, a3]
    · rw [Cert.ReferenceIdeal.Read.val_main_v16_eq, Cert.ReferenceIdeal.Stages.outputs_ref_array, a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
